-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x48 : Shape := ⟨2, ![1600000, 48]⟩
abbrev S48x48 : Shape := ⟨2, ![48, 48]⟩
abbrev S1600000 : Shape := ⟨1, ![1600000]⟩
abbrev S_ : Shape := ⟨0, ![]⟩

class Facts : Prop where
  bcast_S_S1600000x48 : S_.BroadcastsInDim S1600000x48 (![] : Fin 0 → Fin S1600000x48.rank)
  reducesTo_S1600000x48_S_d0_1 : S1600000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_

variable [Facts]

def fn {F : FTy → Type} [FloatOps F] (main_arg0 : FVec F S1600000x48 .f32) (main_arg1 : FVec F S48x48 .f32) (main_arg2 : IVec S1600000 32) (main_arg3 : IVec S1600000 32) : IVec S_ 1 :=
  let main_v0 : FVec F S1600000x48 .f32 := Host.absf main_arg0
  let main_cst : FVec F S_ .f32 := constant S_ .f32 0x7F800000#32
  let main_v1 : FVec F S1600000x48 .f32 := broadcastInDim S1600000x48 ![] bcast_S_S1600000x48 main_cst
  let main_v2 : IVec S1600000x48 1 := cmpf .olt main_v0 main_v1
  let main_c : IVec S_ 1 := constantI S_ 1 1#1
  let main_v3 : IVec S_ 1 := (fun x v => Host.reduce IntOp.andi x v reducesTo_S1600000x48_S_d0_1 h_S_) main_v2 main_c
  let main_v4 : FVec F S48x48 .f32 := Host.absf main_arg1
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  main_v8
-- ==== Kernel.lean ====
abbrev S1600000x48 : Shape := ⟨2, ![1600000, 48]⟩
abbrev S48x48 : Shape := ⟨2, ![48, 48]⟩
abbrev S1600000 : Shape := ⟨1, ![1600000]⟩
abbrev S25000x48 : Shape := ⟨2, ![25000, 48]⟩
abbrev S_ : Shape := ⟨0, ![]⟩
abbrev S100000x48 : Shape := ⟨2, ![100000, 48]⟩
abbrev S1600000x1 : Shape := ⟨2, ![1600000, 1]⟩

abbrev nBuf : Space → Nat
  | .hbm => 14
  | .vmem => 5
  | .smem => 0
  | _ => 0

abbrev bufTy : (tb : Table) → Fin (tcTables nBuf tb) → BufTy
  | .hbm, ⟨0, _⟩ => ⟨S1600000x48, .f32⟩
  | .hbm, ⟨1, _⟩ => ⟨S48x48, .f32⟩
  | .hbm, ⟨2, _⟩ => ⟨S1600000, .i32⟩
  | .hbm, ⟨3, _⟩ => ⟨S1600000, .i32⟩
  | .hbm, ⟨4, _⟩ => ⟨S1600000x48, .f32⟩
  | .hbm, ⟨5, _⟩ => ⟨S_, .f32⟩
  | .hbm, ⟨6, _⟩ => ⟨S100000x48, .f32⟩
  | .hbm, ⟨7, _⟩ => ⟨S1600000x1, .i32⟩
  | .hbm, ⟨8, _⟩ => ⟨S100000x48, .f32⟩
  | .hbm, ⟨9, _⟩ => ⟨S_, .f32⟩
  | .hbm, ⟨10, _⟩ => ⟨S100000x48, .f32⟩
  | .hbm, ⟨11, _⟩ => ⟨S1600000x1, .i32⟩
  | .hbm, ⟨12, _⟩ => ⟨S100000x48, .f32⟩
  | .hbm, ⟨13, _⟩ => ⟨S100000x48, .f32⟩
  | .local _ .vmem, ⟨0, _⟩ => ⟨S25000x48, .f32⟩
  | .local _ .vmem, ⟨1, _⟩ => ⟨S25000x48, .f32⟩
  | .local _ .vmem, ⟨2, _⟩ => ⟨S48x48, .f32⟩
  | .local _ .vmem, ⟨3, _⟩ => ⟨S25000x48, .f32⟩
  | .local _ .vmem, ⟨4, _⟩ => ⟨S25000x48, .f32⟩
  | _, _ => ⟨S1600000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S25000x48_S25000x48_0_0 : ∀ a, (![0, 0] : Fin 2 → Nat) a + S25000x48.size a ≤ S25000x48.size a
  h_S25000x48 : 0 < S25000x48.numel
  bitsLt_bf16_f32 : FTy.bits .bf16 < FTy.bits .f32
  inb_S48x48_S48x48_0_0 : ∀ a, (![0, 0] : Fin 2 → Nat) a + S48x48.size a ≤ S48x48.size a
  h_S48x48 : 0 < S48x48.numel
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  dot_S25000x48_S48x48_S25000x48_1_0_0_1_n_n_wf : DotDims.WF S25000x48 S48x48 S25000x48 [1] [0] [0] [1] [] []
  scatter_S100000x48_S1600000x1_S1600000x48_1_0_0_1_wf : ScatterDims.WF S100000x48 S1600000x1 S1600000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x48.size a ≤ S1600000x48.size a
  hwx0_0 : ∀ i : grid0.Coords, EltTy.bits .f32 = 32 ∨ (Rect.block (s := S1600000x48) S25000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x48.size a ≤ S48x48.size a
  hwx0_1 : ∀ i : grid0.Coords, EltTy.bits .f32 = 32 ∨ (Rect.block (s := S48x48) S48x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x48.size a ≤ S1600000x48.size a
  hwx0_2 : ∀ i : grid0.Coords, EltTy.bits .f32 = 32 ∨ (Rect.block (s := S1600000x48) S25000x48.size (cc0_transform_2 i) (hinb0_2 i)).WholeWords (EltTy.packing .f32)

variable [Facts₀]

def dot_S25000x48_S48x48_S25000x48_1_0_0_1_n_n : DotDims S25000x48 S48x48 S25000x48 where
  lhsContracting := [1]
  rhsContracting := [0]
  lhsNonContracting := [0]
  rhsNonContracting := [1]
  lhsBatch := []
  rhsBatch := []
  wf := dot_S25000x48_S48x48_S25000x48_1_0_0_1_n_n_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

abbrev win0_0 : Pipeline.Window sig grid0 :=
  Pipeline.Window.ofSpec (Memref.whole main_arg0) S25000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S48x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S25000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000x48 : Shape := ⟨2, ![1600000, 48]⟩
abbrev S48x48 : Shape := ⟨2, ![48, 48]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩

abbrev nBuf : Space → Nat
  | .hbm => 14
  | .vmem => 0
  | .smem => 0
  | _ => 0

abbrev bufTy : (tb : Table) → Fin (tcTables nBuf tb) → BufTy
  | .hbm, ⟨0, _⟩ => ⟨S1600000x48, .f32⟩
  | .hbm, ⟨1, _⟩ => ⟨S48x48, .f32⟩
  | .hbm, ⟨2, _⟩ => ⟨S1600000, .i32⟩
  | .hbm, ⟨3, _⟩ => ⟨S1600000, .i32⟩
  | .hbm, ⟨4, _⟩ => ⟨S1600000x48, .f32⟩
  | .hbm, ⟨5, _⟩ => ⟨S_, .f32⟩
  | .hbm, ⟨6, _⟩ => ⟨S100000x48, .f32⟩
  | .hbm, ⟨7, _⟩ => ⟨S1600000x1, .i32⟩
  | .hbm, ⟨8, _⟩ => ⟨S100000x48, .f32⟩
  | .hbm, ⟨9, _⟩ => ⟨S_, .f32⟩
  | .hbm, ⟨10, _⟩ => ⟨S100000x48, .f32⟩
  | .hbm, ⟨11, _⟩ => ⟨S1600000x1, .i32⟩
  | .hbm, ⟨12, _⟩ => ⟨S100000x48, .f32⟩
  | .hbm, ⟨13, _⟩ => ⟨S100000x48, .f32⟩
  | _, _ => ⟨S1600000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  dot_S1600000x48_S48x48_S1600000x48_1_0_0_1_n_n_wf : DotDims.WF S1600000x48 S48x48 S1600000x48 [1] [0] [0] [1] [] []
  scatter_S100000x48_S1600000x1_S1600000x48_1_0_0_1_wf : ScatterDims.WF S100000x48 S1600000x1 S1600000x48 [1] [0] [0] 1

variable [Facts₀]

def dot_S1600000x48_S48x48_S1600000x48_1_0_0_1_n_n : DotDims S1600000x48 S48x48 S1600000x48 where
  lhsContracting := [1]
  rhsContracting := [0]
  lhsNonContracting := [0]
  rhsNonContracting := [1]
  lhsBatch := []
  rhsBatch := []
  wf := dot_S1600000x48_S48x48_S1600000x48_1_0_0_1_n_n_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

class Facts : Prop extends Facts₀ where

variable [Facts]
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.EdgeProduct.lean ====
/-
  The edge features after the linear layer, as one function of the two argument arrays.

  For the edge-feature matrix `x` (1,600,000 edges, 48 features each) and the weight matrix `w` (48 by 48),
  entry `(e, j)` of `h = x · w` is the sum over `k` of `x (e, k) * w (k, j)`. Both programs compute this array:
  the kernel block by block (25,000 edges at a time, after a change of float format that is the identity on
  the extended reals, into a zero accumulator), the reference by one general dot product. A general dot product
  with the plain dimension numbers is this function outright.
-/
import Idealize.ShloMosaic.Lib.ValueIdx
import Idealize.ShloMosaic.PureOps.Ideal.Laws
import proofs.«104556_j49881750176303_1_alg».proof.Proof.LibPlainDot

open scoped BigOperators

noncomputable section

namespace Cert.EdgeProduct

open Idealize.ShloMosaic Idealize.ShloMosaic.ValueIdx

/-- `h = x · w`: entry `(e, j)` is the sum over the 48 input features `k` of `x (e, k) * w (k, j)`. -/
def edgeProduct (x : (⟨2, ![1600000, 48]⟩ : Shape).Idx → EReal) (w : (⟨2, ![48, 48]⟩ : Shape).Idx → EReal) :
    (⟨2, ![1600000, 48]⟩ : Shape).Idx → EReal :=
  fun i => ∑ k : Fin 48, x (ix2 (i 0) k) * w (ix2 k (i 1))

/-- The whole-array general dot product `[1600000, 48] · [48, 48]` with the plain dimension numbers is `edgeProduct`. -/
theorem dotGeneral_eq {d : DotDims (⟨2, ![1600000, 48]⟩ : Shape) (⟨2, ![48, 48]⟩ : Shape) (⟨2, ![1600000, 48]⟩ : Shape)}
    (hd : PlainDot.IsPlain d) (prec : Option ContractPrecision)
    (x : FVec Ideal (⟨2, ![1600000, 48]⟩ : Shape) .f32) (w : FVec Ideal (⟨2, ![48, 48]⟩ : Shape) .f32) :
    Host.dotGeneral (F := Ideal) d prec x w = edgeProduct x w := by
  funext i
  rw [eq_ix2 i]
  exact PlainDot.dotGeneral_apply hd prec .single x w (i 0) (i 1)

end Cert.EdgeProduct

end
-- ==== Proof.KernelBlock.lean ====
/-
  One grid point of the kernel, at the extended reals.

  At a grid point the body loads a block of 25,000 edges of `x` and the whole of `w`, changes both to a shorter
  float format (the identity on the extended reals), and stores their matrix product into a zero accumulator.
  So entry `(p, q)` of what it stores is the sum over `k` of `xblock (p, k) * w (k, q)`; and when the block is
  rows `b * 25000 ..` of `x`, that is entry `(b * 25000 + p, q)` of `x · w`.
-/
import proofs.«104556_j49881750176303_1_alg».proof.Proof.Gen.KernelIdeal.Frame
import proofs.«104556_j49881750176303_1_alg».proof.Proof.EdgeProduct

open scoped BigOperators

noncomputable section

namespace Cert.KernelIdeal.Block

open Idealize.ShloMosaic Idealize.ShloMosaic.ValueIdx Cert.KernelIdeal Cert.KernelIdeal.Gen Cert.EdgeProduct

/-- The body's matrix product has the plain dimension numbers `[25000, 48] · [48, 48] → [25000, 48]`. -/
theorem plain : PlainDot.IsPlain dot_S25000x48_S48x48_S25000x48_1_0_0_1_n_n := ⟨rfl, rfl, rfl, rfl, rfl, rfl⟩

/-- What the body stores, at entry `(p, q)`: the sum over the 48 input features of the products. The two changes of
    float format are the identity on the extended reals and the accumulator is zero. -/
theorem payload_apply (x0 : Vec Ideal S25000x48 .f32) (x1 : Vec Ideal S48x48 .f32) (p : Fin 25000) (q : Fin 48) :
    k0_pay1 (F := Ideal) x0 x1 (ix2 p q) = ∑ k : Fin 48, x0 (ix2 p k) * x1 (ix2 k q) := by
  unfold k0_pay1
  exact (Ideal.matmul_constant_zero_apply dot_S25000x48_S48x48_S25000x48_1_0_0_1_n_n none
      (truncf (F := Ideal) .bf16 x0 bitsLt_bf16_f32) (truncf (F := Ideal) .bf16 x1 bitsLt_bf16_f32) (ix2 p q)).trans
    (PlainDot.sum_contr plain (fun i => x0 i) (fun i => x1 i) p q)

/-- When the loaded block holds rows `b * 25000 ..` of `X` and the second operand is `Wt`, the stored entry `y` is
    the entry of `X · Wt` at row `b * 25000 + y 0`, column `y 1`. -/
theorem payload_eq_edgeProduct (X : (⟨2, ![1600000, 48]⟩ : Shape).Idx → EReal) (Wt : (⟨2, ![48, 48]⟩ : Shape).Idx → EReal)
    (x0 : Vec Ideal S25000x48 .f32) (x1 : Vec Ideal S48x48 .f32) (b : ℕ)
    (hx0 : ∀ (p : Fin 25000) (k : Fin 48) (i' : (⟨2, ![1600000, 48]⟩ : Shape).Idx),
      (i' 0).val = b * 25000 + p.val → (i' 1).val = k.val → x0 (ix2 p k) = X i')
    (hx1 : ∀ (k q : Fin 48), x1 (ix2 k q) = Wt (ix2 k q))
    (y : (⟨2, ![25000, 48]⟩ : Shape).Idx) (i : (⟨2, ![1600000, 48]⟩ : Shape).Idx)
    (hi0 : (i 0).val = b * 25000 + (y 0).val) (hi1 : (i 1).val = (y 1).val) :
    k0_pay1 (F := Ideal) x0 x1 y = edgeProduct X Wt i := by
  obtain ⟨p, q, rfl⟩ : ∃ (p : Fin 25000) (q : Fin 48), y = ix2 p q := ⟨y 0, y 1, eq_ix2 y⟩
  rw [payload_apply]
  unfold edgeProduct
  refine Finset.sum_congr rfl fun k _ => ?_
  have hq : (i 1 : Fin 48) = q := Fin.ext hi1
  rw [hx0 p k (ix2 (i 0) k) hi0 rfl, hx1 k q, hq]

end Cert.KernelIdeal.Block

end
-- ==== Proof.KernelArray.lean ====
/-
  The kernel's intermediate array after the region, at the extended reals.

  The grid has 64 points; point `t` reads rows `t * 25000 ..` of `x` and the whole of `w`, and writes rows
  `t * 25000 ..` of the result. By the per-point fact, what point `t` writes back is block `t` of `x · w`; the 64
  blocks tile the 1,600,000 rows (row `r` is in block `r / 25000`), so after the region the array holds `x · w`.
-/
import proofs.«104556_j49881750176303_1_alg».proof.Proof.KernelBlock
import Idealize.ShloMosaic.Lib.Pipeline.Value

set_option maxRecDepth 16384

open scoped BigOperators

noncomputable section

namespace Cert.KernelIdeal.EdgeArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.EdgeProduct

variable (m : (ℓ : Loc nD τ sig) → Buf (Elt Ideal) ℓ)

/-- Every access of the body starts at the origin of its buffer. -/
theorem zero_offsets : (![0, 0] : Fin 2 → Nat) = fun _ => 0 := funext fun a => by fin_cases a <;> rfl

/-- The printed index maps over the grid: the `x` window and the output window are at block row `t`, column block
    `0`; the `w` window stays at its one block. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `x · w` of the arrays as the region finds them. -/
theorem flushed_eq (c : Dev nD) (t : Fin cfg0.N) :
    (dats m 0 c).flushed 2 t
      = ((cfg0.win 2).blk t).view.read (Elt Ideal) (edgeProduct (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S25000x48) zero_offsets, View.ld_unit_zero (S := S48x48) zero_offsets]
  obtain ⟨e0, e1, e2, e3, e4, e5⟩ := index_facts t
  funext j
  show k0_pay1 (F := Ideal) (iblk m c 0 t) (iblk m c 1 t) j
    = edgeProduct (V m c main_arg0) (V m c main_arg1) (((cfg0.win 2).blk t).view.emb j)
  refine Block.payload_eq_edgeProduct (V m c main_arg0) (V m c main_arg1) (iblk m c 0 t) (iblk m c 1 t) t.val
    ?_ ?_ j _ ?_ ?_
  · intro p k i' h0 h1
    show V m c main_arg0 (((cfg0.win 0).blk t).view.emb (ix2 p k)) = V m c main_arg0 i'
    refine congrArg _ (funext fun a => Fin.ext ?_)
    match a with
    | ⟨0, _⟩ => show win0_0.index t (0 : Fin 2) * 25000 + 1 * p.val = (i' 0).val; omega
    | ⟨1, _⟩ => show win0_0.index t (1 : Fin 2) * 48 + 1 * k.val = (i' 1).val; omega
  · intro k q
    show V m c main_arg1 (((cfg0.win 1).blk t).view.emb (ix2 k q)) = V m c main_arg1 (ix2 k q)
    refine congrArg _ (funext fun a => Fin.ext ?_)
    match a with
    | ⟨0, _⟩ => show win0_1.index t (0 : Fin 2) * 48 + 1 * k.val = k.val; omega
    | ⟨1, _⟩ => show win0_1.index t (1 : Fin 2) * 48 + 1 * q.val = q.val; omega
  · show win0_2.index t (0 : Fin 2) * 25000 + 1 * (j 0).val = t.val * 25000 + (j 0).val; omega
  · show win0_2.index t (1 : Fin 2) * 48 + 1 * (j 1).val = (j 1).val; omega

/-- An index of the array is in point `t`'s block iff each coordinate is in the block's range on its axis. -/
theorem mem_blk (t : Fin cfg0.N) (i : S1600000x48.Idx) :
    i ∈ ((cfg0.win 2).blk t).view.set ↔ ∀ a : Fin 2, win0_2.index t a * S25000x48.size a ≤ (i a).val
      ∧ (i a).val < win0_2.index t a * S25000x48.size a + S25000x48.size a := by
  show i ∈ ((View.whole main_v0).slice (win0_2.rect t)).set ↔ _
  rw [View.set_slice_whole, Rect.mem_set_unit]
  exact Iff.rfl

/-- The 64 blocks cover the array: row `r` is in the block of point `r / 25000`. -/
theorem cover (i : S1600000x48.Idx) :
    ∃ t : Fin cfg0.N, (cfg0.win 2).flush t = true ∧ i ∈ ((cfg0.win 2).blk t).view.set := by
  have hi0 : (i 0).val < 1600000 := (i 0).isLt
  have hi1 : (i 1).val < 48 := (i 1).isLt
  have ht : (i 0).val / 25000 < grid0.N := by rw [N_0]; omega
  refine ⟨⟨(i 0).val / 25000, ht⟩, flush0_2 _, ?_⟩
  rw [mem_blk]
  obtain ⟨e0, e1, e2, e3, e4, e5⟩ := index_facts ⟨(i 0).val / 25000, ht⟩
  intro a
  match a with
  | ⟨0, _⟩ =>
    show win0_2.index ⟨(i 0).val / 25000, ht⟩ (0 : Fin 2) * 25000 ≤ (i 0).val
      ∧ (i 0).val < win0_2.index ⟨(i 0).val / 25000, ht⟩ (0 : Fin 2) * 25000 + 25000
    rw [e4]; show (i 0).val / 25000 * 25000 ≤ (i 0).val ∧ (i 0).val < (i 0).val / 25000 * 25000 + 25000
    omega
  | ⟨1, _⟩ =>
    show win0_2.index ⟨(i 0).val / 25000, ht⟩ (1 : Fin 2) * 48 ≤ (i 1).val
      ∧ (i 1).val < win0_2.index ⟨(i 0).val / 25000, ht⟩ (1 : Fin 2) * 48 + 48
    rw [e5]; omega

/-- After the region the intermediate array holds `x · w` of the argument arrays. -/
theorem final (c : Dev nD) :
    (dats m 0 c).arrAt 2 cfg0.N
      = edgeProduct (m ((c : Thread nD τ).loc main_arg0)) (m ((c : Thread nD τ).loc main_arg1)) :=
  (dats m 0 c).arrAt_eq_of_cover 2 (edgeProduct (V m c main_arg0) (V m c main_arg1))
    (fun t _ => flushed_eq m c t) (cover)

end Cert.KernelIdeal.EdgeArray

end
-- ==== Proof.KernelRun.lean ====
/-
  The kernel program's run, with its result named.

  After the region the intermediate array holds `h = x · w`. The host lines after it compute
  `x_0 = segment_sum (h, tgt) - segment_sum (h, src)`: two accumulating scatters of the rows of `h` into a zero
  `[100000, 48]` array, one at the target node of each edge and one at the source node, and their difference. None
  of those lines writes an argument or the intermediate array, so each reads `h` as the region left it and the two
  index arrays as launched.
-/
import proofs.«104556_j49881750176303_1_alg».proof.Proof.KernelArray
import Idealize.ShloMosaic.Lib.StableHlo.Run

set_option maxRecDepth 16384

noncomputable section

namespace Cert.KernelIdeal.NodeRun

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.EdgeProduct

/-- The node features from the edge features `h`: the rows of `h` summed at each edge's target node, minus the rows
    of `h` summed at each edge's source node (the signed incidence matrix applied to `h`). -/
def nodeSums (h : FVec Ideal S1600000x48 .f32) (src tgt : IVec S1600000 32) : FVec Ideal S100000x48 .f32 :=
  subf
    (Host.scatterAdd (F := Ideal) scatter_S100000x48_S1600000x1_S1600000x48_1_0_0_1
      (broadcastInDim S100000x48 ![] bcast_S_S100000x48 (constant (F := Ideal) S_ .f32 0x00000000#32))
      (broadcastInDim S1600000x1 ![0] bcast_S1600000_S1600000x1_0 tgt) h)
    (Host.scatterAdd (F := Ideal) scatter_S100000x48_S1600000x1_S1600000x48_1_0_0_1
      (broadcastInDim S100000x48 ![] bcast_S_S100000x48 (constant (F := Ideal) S_ .f32 0x00000000#32))
      (broadcastInDim S1600000x1 ![0] bcast_S1600000_S1600000x1_0 src) h)

variable (m : (ℓ : Loc nD τ sig) → Buf (Elt Ideal) ℓ)

/-- The lines after the region find the intermediate array at `x · w`. -/
theorem edge_array (c : Dev nD) :
    Pipeline.withArrays (cfgs 0).spec c (V0 m c) (fun w => (dats m 0 c).arrAt w (cfgs 0).N) (Proc.devRef .tc main_v0)
      = edgeProduct (m ((c : Thread nD τ).loc main_arg0)) (m ((c : Thread nD τ).loc main_arg1)) :=
  (Pipeline.withArrays_arr spec0 launch0.win.arr_inj c _ _ 2).trans (EdgeArray.final m c)

/-- They find the source indices as launched: the region stages no window of that array. -/
theorem src_kept (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- They find the target indices as launched. -/
theorem tgt_kept (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- The result buffer after the lines that follow the region: `nodeSums` of `x · w` and the two index arrays. -/
theorem tail_eq (c : Dev nD) :
    Pipeline.afterTail₀ cfgs (dats m) 0 (V0 m) [hostOps1] c main_v7
      = nodeSums (edgeProduct (m ((c : Thread nD τ).loc main_arg0)) (m ((c : Thread nD τ).loc main_arg1)))
          (m ((c : Thread nD τ).loc main_arg2)) (m ((c : Thread nD τ).loc main_arg3)) := by
  unfold Pipeline.afterTail₀
  show StableHlo.after hostOps1 _ (Proc.devRef .tc main_v7) = _
  after_results
  rw [edge_array m c, src_kept m c, tgt_kept m c]
  rfl

/-- Every weakly fair execution of the kernel program terminates with the result at `nodeSums (x · w)` and the
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v7)
        = nodeSums (edgeProduct (m ((c : Thread nD τ).loc main_arg0)) (m ((c : Thread nD τ).loc main_arg1)))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.NodeRun

end
-- ==== Proof.RefValue.lean ====
/-
  The reference's edge features, at the extended reals.

  The reference computes `h = x · w` by one general dot product over the whole arrays, contracting the second axis of
  `x` with the first of `w`, with no batch axes: the plain dimension numbers. So its `h` is the same function of the
  arguments as the kernel's, entry by entry the sum over `k` of `x (e, k) * w (k, j)`.
-/
import proofs.«104556_j49881750176303_1_alg».proof.Proof.Gen.ReferenceIdeal.Run
import proofs.«104556_j49881750176303_1_alg».proof.Proof.EdgeProduct

noncomputable section

namespace Cert.ReferenceIdeal.RefValue

open Idealize.ShloMosaic Cert.ReferenceIdeal Cert.ReferenceIdeal.Gen Cert.EdgeProduct

/-- The reference's dot product has the plain dimension numbers `[1600000, 48] · [48, 48] → [1600000, 48]`. -/
theorem plain : PlainDot.IsPlain dot_S1600000x48_S48x48_S1600000x48_1_0_0_1_n_n := ⟨rfl, rfl, rfl, rfl, rfl, rfl⟩

/-- The reference's `h` is `x · w`. -/
theorem dot_eq (x : FVec Ideal S1600000x48 .f32) (w : FVec Ideal S48x48 .f32) :
    Host.dotGeneral (F := Ideal) dot_S1600000x48_S48x48_S1600000x48_1_0_0_1_n_n none x w = edgeProduct x w :=
  dotGeneral_eq plain none x w

end Cert.ReferenceIdeal.RefValue

end
-- ==== Proof.lean ====
/-
  Node features from edge features through the signed incidence matrix: the kernel against its reference.

  Both programs take edge features `x` (1,600,000 by 48), a weight matrix `w` (48 by 48) and, per edge, a source and
  a target node among 100,000. Both compute `h = x · w` and then
  `x_0 = segment_sum (h, tgt) - segment_sum (h, src)`, the rows of `h` added at each edge's target node minus the rows
  added at its source node.

  The two differ only in how `h` is made. The kernel makes it 25,000 edges at a time: each grid point changes its block
  of `x` and the whole of `w` to a shorter float format and multiplies them into a zero accumulator. The reference makes
  it by one general dot product. On the extended reals the change of format is the identity and both products are, entry
  by entry, the sum over `k` of `x (e, k) * w (k, j)` (`Cert.EdgeProduct.edgeProduct`); the 64 blocks tile the rows, so
  after the region the kernel's array is that function of the arguments (`Cert.KernelIdeal.EdgeArray.final`), and the
  reference's is too (`Cert.ReferenceIdeal.RefValue.dot_eq`). The lines that turn `h` into `x_0` are the same in both
  programs, so equal `h` gives equal results; no property of the inputs is used, not even finiteness.

  The ideal pass rewrote nothing in the kernel, so the idealized kernel is the kernel's own text read at the extended
  reals and there is nothing to preserve.
-/
import proofs.«104556_j49881750176303_1_alg».proof.Defs
import proofs.«104556_j49881750176303_1_alg».proof.Proof.Gen.Kernel
import proofs.«104556_j49881750176303_1_alg».proof.Proof.Gen.Kernel.Skeleton
import proofs.«104556_j49881750176303_1_alg».proof.Proof.Gen.Kernel.Launch
import proofs.«104556_j49881750176303_1_alg».proof.Proof.Gen.Kernel.Points
import proofs.«104556_j49881750176303_1_alg».proof.Proof.Gen.Kernel.Frame
import proofs.«104556_j49881750176303_1_alg».proof.Proof.Gen.KernelIdeal
import proofs.«104556_j49881750176303_1_alg».proof.Proof.Gen.KernelIdeal.Skeleton
import proofs.«104556_j49881750176303_1_alg».proof.Proof.Gen.KernelIdeal.Launch
import proofs.«104556_j49881750176303_1_alg».proof.Proof.Gen.KernelIdeal.Points
import proofs.«104556_j49881750176303_1_alg».proof.Proof.Gen.KernelIdeal.Frame
import proofs.«104556_j49881750176303_1_alg».proof.Proof.Gen.ReferenceIdeal
import proofs.«104556_j49881750176303_1_alg».proof.Proof.Gen.ReferenceIdeal.Run
import proofs.«104556_j49881750176303_1_alg».proof.Proof.Gen.Pre_finite_inputs
import proofs.«104556_j49881750176303_1_alg».proof.Proof.KernelRun
import proofs.«104556_j49881750176303_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end at `nodeSums (x · w)`: the kernel by its run read
    through the region and the lines after it, the reference by its run with its dot product read as `x · w`; the lines
    from `h` to the result are the same text in both. -/
theorem algebraic : Cert.algebraic_KernelIdeal_ReferenceIdeal := by
  intro m ρ m' ρ' _ hagree
  refine ⟨_, Cert.KernelIdeal.NodeRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.dot_eq, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
